-- ==== Defs.lean ====
def Pre_Kernel [hPre_any_inputs : Cert.Pre_any_inputs.Facts] (m : (ℓ : Loc Cert.Kernel.nD Cert.Kernel.τ Cert.Kernel.sig) → Buf (Elt Bits) ℓ) : Prop :=
  ∀ c : Dev Cert.Kernel.nD,
    (Cert.Pre_any_inputs.fn (F := Bits) (m ((c.tc : Thread Cert.Kernel.nD Cert.Kernel.τ).loc Cert.Kernel.main_arg0))) = (fun _ => 1#1)

def Pre_KernelIdeal [hPre_any_inputs : Cert.Pre_any_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_any_inputs.fn (F := Ideal) (m ((c.tc : Thread Cert.KernelIdeal.nD Cert.KernelIdeal.τ).loc Cert.KernelIdeal.main_arg0))) = (fun _ => 1#1)

def Pre_ReferenceIdeal [hPre_any_inputs : Cert.Pre_any_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_any_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_any_inputs : Cert.Pre_any_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_any_inputs : Cert.Pre_any_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_any_inputs : Cert.Pre_any_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_any_inputs : Cert.Pre_any_inputs.Facts),
    frame_Kernel (hKernel := hKernel) (hPre_any_inputs := hPre_any_inputs)
    ∧ frame_KernelIdeal (hKernelIdeal := hKernelIdeal) (hPre_any_inputs := hPre_any_inputs)
    ∧ frame_ReferenceIdeal (hReferenceIdeal := hReferenceIdeal) (hPre_any_inputs := hPre_any_inputs)
    ∧ preserves_Kernel_KernelIdeal
    ∧ algebraic_KernelIdeal_ReferenceIdeal (hKernelIdeal := hKernelIdeal) (hReferenceIdeal := hReferenceIdeal) (hPre_any_inputs := hPre_any_inputs)
-- ==== Pre_any_inputs.lean ====
abbrev S64x2048 : Shape := ⟨2, ![64, 2048]⟩
abbrev S_ : Shape := ⟨0, ![]⟩

class Facts : Prop where

variable [Facts]

def fn {F : FTy → Type} [FloatOps F] (main_arg0 : IVec S64x2048 32) : IVec S_ 1 :=
  let main_c : IVec S_ 1 := constantI S_ 1 1#1
  main_c
-- ==== Kernel.lean ====
abbrev S64x2048 : Shape := ⟨2, ![64, 2048]⟩
abbrev S2048x64 : Shape := ⟨2, ![2048, 64]⟩
abbrev S2048x131072 : Shape := ⟨2, ![2048, 131072]⟩
abbrev S256x64 : Shape := ⟨2, ![256, 64]⟩
abbrev S256x8192 : Shape := ⟨2, ![256, 8192]⟩
abbrev S1x8192 : Shape := ⟨2, ![1, 8192]⟩
abbrev S2048x2048x64 : Shape := ⟨3, ![2048, 2048, 64]⟩

abbrev nBuf : Space → Nat
  | .hbm => 4
  | .vmem => 4
  | .smem => 0
  | _ => 0

abbrev bufTy : (tb : Table) → Fin (tcTables nBuf tb) → BufTy
  | .hbm, ⟨0, _⟩ => ⟨S64x2048, .i32⟩
  | .hbm, ⟨1, _⟩ => ⟨S2048x64, .i32⟩
  | .hbm, ⟨2, _⟩ => ⟨S2048x131072, .f32⟩
  | .hbm, ⟨3, _⟩ => ⟨S2048x2048x64, .f32⟩
  | .local _ .vmem, ⟨0, _⟩ => ⟨S256x64, .i32⟩
  | .local _ .vmem, ⟨1, _⟩ => ⟨S256x64, .i32⟩
  | .local _ .vmem, ⟨2, _⟩ => ⟨S256x8192, .f32⟩
  | .local _ .vmem, ⟨3, _⟩ => ⟨S256x8192, .f32⟩
  | _, _ => ⟨S64x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  transposes_S64x2048_S2048x64_1_0 : S64x2048.Transposes [1, 0] S2048x64
  inb_S256x64_S256x64_0_0 : ∀ a, (![0, 0] : Fin 2 → Nat) a + S256x64.size a ≤ S256x64.size a
  h_S256x64 : 0 < S256x64.numel
  shapeCasts_S256x64_S256x64 : S256x64.ShapeCasts S256x64
  concatenates_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x64_S256x8192_d1 : Shape.Concatenates (S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: S256x64 :: []) S256x8192 1
  iota_S1x8192_d1_w32 : S1x8192.Iotas .tc 32 [1]
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  shapeCasts_S2048x131072_S2048x2048x64 : S2048x131072.ShapeCasts S2048x2048x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S2048x64.size a
  hwx0_0 : ∀ i : grid0.Coords, EltTy.bits .i32 = 32 ∨ (Rect.block (s := S2048x64) S256x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S2048x131072.size a
  hwx0_1 : ∀ i : grid0.Coords, EltTy.bits .f32 = 32 ∨ (Rect.block (s := S2048x131072) S256x8192.size (cc0_transform_1 i) (hinb0_1 i)).WholeWords (EltTy.packing .f32)

variable [Facts₀]

abbrev win0_0 : Pipeline.Window sig grid0 :=
  Pipeline.Window.ofSpec (Memref.whole main_v0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x2048 : Shape := ⟨2, ![64, 2048]⟩
abbrev S_ : Shape := ⟨0, ![]⟩
abbrev S2048 : Shape := ⟨1, ![2048]⟩
abbrev S64x2048x1 : Shape := ⟨3, ![64, 2048, 1]⟩
abbrev S1x1x2048 : Shape := ⟨3, ![1, 1, 2048]⟩
abbrev S64x2048x2048 : Shape := ⟨3, ![64, 2048, 2048]⟩
abbrev S2048x2048x64 : Shape := ⟨3, ![2048, 2048, 64]⟩

abbrev nBuf : Space → Nat
  | .hbm => 24
  | .vmem => 0
  | .smem => 0
  | _ => 0

abbrev bufTy : (tb : Table) → Fin (tcTables nBuf tb) → BufTy
  | .hbm, ⟨0, _⟩ => ⟨S64x2048, .i32⟩
  | .hbm, ⟨1, _⟩ => ⟨S_, .i32⟩
  | .hbm, ⟨2, _⟩ => ⟨S64x2048, .i32⟩
  | .hbm, ⟨3, _⟩ => ⟨S64x2048, .i32⟩
  | .hbm, ⟨4, _⟩ => ⟨S_, .i32⟩
  | .hbm, ⟨5, _⟩ => ⟨S64x2048, .i32⟩
  | .hbm, ⟨6, _⟩ => ⟨S64x2048, .i32⟩
  | .hbm, ⟨7, _⟩ => ⟨S2048, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S64x2048x1, .i32⟩
  | .hbm, ⟨15, _⟩ => ⟨S1x1x2048, .i32⟩
  | .hbm, ⟨16, _⟩ => ⟨S64x2048x2048, .i32⟩
  | .hbm, ⟨17, _⟩ => ⟨S64x2048x2048, .i32⟩
  | .hbm, ⟨18, _⟩ => ⟨S64x2048x2048, .i32⟩
  | .hbm, ⟨19, _⟩ => ⟨S_, .i32⟩
  | .hbm, ⟨20, _⟩ => ⟨S64x2048x2048, .i32⟩
  | .hbm, ⟨21, _⟩ => ⟨S64x2048x2048, .i32⟩
  | .hbm, ⟨22, _⟩ => ⟨S2048x2048x64, .i32⟩
  | .hbm, ⟨23, _⟩ => ⟨S2048x2048x64, .f32⟩
  | _, _ => ⟨S64x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_v1 : Ref sig .tc := ⟨.hbm, 3, rfl⟩
abbrev main_c_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  bcast_S_S2048 : S_.BroadcastsInDim S2048 (![] : Fin 0 → Fin S2048.rank)
  bcast_S64x2048_S64x2048x1_0_1 : S64x2048.BroadcastsInDim S64x2048x1 (![0, 1] : Fin 2 → Fin S64x2048x1.rank)
  bcast_S2048_S1x1x2048_2 : S2048.BroadcastsInDim S1x1x2048 (![2] : Fin 1 → Fin S1x1x2048.rank)
  bcast_S64x2048x1_S64x2048x2048_0_1_2 : S64x2048x1.BroadcastsInDim S64x2048x2048 (![0, 1, 2] : Fin 3 → Fin S64x2048x2048.rank)
  bcast_S1x1x2048_S64x2048x2048_0_1_2 : S1x1x2048.BroadcastsInDim S64x2048x2048 (![0, 1, 2] : Fin 3 → Fin S64x2048x2048.rank)
  bcast_S_S64x2048x2048 : S_.BroadcastsInDim S64x2048x2048 (![] : Fin 0 → Fin S64x2048x2048.rank)
  transposes_S64x2048x2048_S2048x2048x64_1_2_0 : S64x2048x2048.Transposes [1, 2, 0] S2048x2048x64

variable [Facts₀]

class Facts : Prop extends Facts₀ where

variable [Facts]
-- ==== Proof.BitSpec.lean ====
/-
  The function both programs compute, and the word arithmetic that joins their two spellings of it.

  For a token `x` (a 32-bit word) let `word x = 2 x + 1` in 32-bit arithmetic. The result array `Y : [2048, 2048, 64]`
  holds, as a float, ONE BIT of that word:
      Y[j, e, b] = float ((word x[b, j] >>ₛ min (2047 - e, 31)) &&& 1),
  the arithmetic shift's amount read off the embedding position `e` alone. Nothing here depends on the float family:
  the only float operation is the conversion of the bit.

  The kernel computes the position `e` of a column `c` of its flat `[256, 8192]` tile in column block `t` as
  `t * 128 + (c >>ₛ 6)` on 32-bit words; `shr6` and `tilePos` bring that word to the word of the number
  `t * 128 + c / 64`, which is what the reference's `iota` holds at that position.
-/
import Idealize.ShloMosaic.PureOps
import Idealize.ShloMosaic.Lib.ValueIdx
import Idealize.ShloMosaic.Lib.KernelVsHost
import Idealize.ShloMosaic.Lib.PackedFields
import Idealize.ShloMosaic.Lib.Pipeline.Value

noncomputable section

namespace Cert.BitSpec

open Idealize.ShloMosaic Idealize.ShloMosaic.ValueIdx

variable {F : FTy → Type} [FloatOps F]

/-- The word whose bits are read: `2 x + 1`, in 32-bit arithmetic. -/
def word (x : BitVec 32) : BitVec 32 := IntOp.addi (IntOp.muli 2#32 x) 1#32

/-- The shift amount at embedding position `e`: `min (2047 - e, 31)`, the minimum a signed one. -/
def amount (e : Nat) : BitVec 32 := IntOp.minsi (IntOp.subi 2047#32 (BitVec.ofNat 32 e)) 31#32

/-- The bit of `word x` that position `e` reads, as a 32-bit word (0 or 1), the shift done on the unit `u`. -/
def bit (u : ArithUnit) (x : BitVec 32) (e : Nat) : BitVec 32 := IntOp.andi (IntOp.shrsi u (word x) (amount e)) 1#32

/-- On 32-bit words the units shift alike, so the bit does not depend on the unit. -/
theorem bit_unit (u u' : ArithUnit) (x : BitVec 32) (e : Nat) : bit u x e = bit u' x e := by
  unfold bit; rw [shrsi_unit u u']

/-- THE RESULT as one function of the token array `x : [64, 2048]`: at `(j, e, b)` the bit of `word x[b, j]` that
    position `e` reads, converted to a float. -/
def G (x : (⟨2, ![64, 2048]⟩ : Shape).Idx → BitVec 32) : (⟨3, ![2048, 2048, 64]⟩ : Shape).Idx → F .f32 :=
  fun i => FloatOps.sitofp .f32 (bit .host (x (ix2 (i 2) (i 0))) (i 1).val)

/-- A column number below 8192 shifted right by 6, as words, is the word of the column's quotient by 64. -/
theorem shr6 (u : ArithUnit) (c : Nat) (hc : c < 8192) :
    IntOp.shrsi u (BitVec.ofNat 32 c) 6#32 = BitVec.ofNat 32 (c / 64) := by
  have hx : (BitVec.ofNat 32 c).toNat = c := by rw [BitVec.toNat_ofNat]; exact Nat.mod_eq_of_lt (by omega)
  refine (PackedFields.shrsi_eq_iff (u := u) (BitVec.ofNat 32 c) 6 (c / 64) (by decide) (by norm_num; omega)).2 ?_
  rw [hx]; norm_num; omega

/-- Column block `t` times 128 plus an offset, computed on words, is the word of that number. -/
theorem tilePos (t q : Nat) :
    IntOp.addi (Scalar.muli (BitVec.ofNat 32 t) 128#32) (BitVec.ofNat 32 q) = BitVec.ofNat 32 (t * 128 + q) := by
  unfold IntOp.addi Scalar.muli IntOp.muli
  rw [show (128#32 : BitVec 32) = BitVec.ofNat 32 128 from rfl, ← BitVec.ofNat_mul, ← BitVec.ofNat_add]

/-! ## The flat layout

The kernel writes a `[2048, 2048 * 64]` array whose column `C` holds position `C / 64` of batch entry `C % 64`; the
program's last operation reshapes it, row-major, to `[2048, 2048, 64]`. -/

/-- The flat array as one function of the token array: at `(J, C)` the bit of `word x[C % 64, J]` that position `C / 64`
    reads (the shift on the vector unit, as the kernel does it). -/
def flat (x : (⟨2, ![64, 2048]⟩ : Shape).Idx → BitVec 32) : (⟨2, ![2048, 131072]⟩ : Shape).Idx → F .f32 :=
  fun I => FloatOps.sitofp .f32 (bit .vector
    (x (ix2 (⟨(I 1).val % 64, Nat.mod_lt _ (by decide)⟩ : Fin 64) (⟨(I 0).val, idx2_lt0 I⟩ : Fin 2048))) ((I 1).val / 64))

/-- The flat array at an index whose row, column remainder and column quotient are known as numbers. -/
theorem flat_apply (x : (⟨2, ![64, 2048]⟩ : Shape).Idx → BitVec 32) (I : (⟨2, ![2048, 131072]⟩ : Shape).Idx)
    (J : Fin 2048) (q : Fin 64) (e : Nat) (hJ : (I 0).val = J.val) (hq : (I 1).val % 64 = q.val) (he : (I 1).val / 64 = e) :
    flat (F := F) x I = FloatOps.sitofp .f32 (bit .vector (x (ix2 q J)) e) := by
  unfold flat
  rw [show (⟨(I 1).val % 64, Nat.mod_lt _ (by decide)⟩ : Fin 64) = q from Fin.ext hq,
    show (⟨(I 0).val, idx2_lt0 I⟩ : Fin 2048) = J from Fin.ext hJ, he]

/-- The flat array reshaped to `[2048, 2048, 64]` is `G`: entry `(j, e, b)` is flat entry `(j, e * 64 + b)`, whose column
    has quotient `e` and remainder `b`; and the vector unit's shift is the host's. -/
theorem reshape_flat (x : (⟨2, ![64, 2048]⟩ : Shape).Idx → BitVec 32)
    (h : (⟨2, ![2048, 131072]⟩ : Shape).ShapeCasts ⟨3, ![2048, 2048, 64]⟩) :
    shapeCast ⟨3, ![2048, 2048, 64]⟩ (flat (F := F) x) h = G (F := F) x := by
  funext i
  have h0 : (i 0).val < 2048 := (i 0).isLt
  have h1 : (i 1).val < 2048 := (i 1).isLt
  have h2 : (i 2).val < 64 := (i 2).isLt
  rw [shapeCast_apply (flat (F := F) x) h i
    (ix2 (⟨(i 0).val, h0⟩ : Fin 2048) (⟨(i 1).val * 64 + (i 2).val, by omega⟩ : Fin 131072)) (by
      rw [Shape.rowMajor_val_two, Shape.rowMajor_val_three]
      show (i 0).val * 131072 + ((i 1).val * 64 + (i 2).val) = ((i 0).val * 2048 + (i 1).val) * 64 + (i 2).val
      omega)]
  rw [flat_apply x _ ⟨(i 0).val, h0⟩ ⟨(i 2).val, h2⟩ (i 1).val rfl
    (by show ((i 1).val * 64 + (i 2).val) % 64 = (i 2).val; omega)
    (by show ((i 1).val * 64 + (i 2).val) / 64 = (i 1).val; omega), bit_unit .vector .host]
  rfl

end Cert.BitSpec

end
-- ==== Proof.KernelPayload.lean ====
/-
  The kernel body's stored value, read at one entry of its flat `[256, 8192]` tile.

  At grid point `i = (i₀, i₁)` the body loads the `[256, 64]` block `x0` of the transposed token array, forms `word = 2 x0 + 1`,
  lays 128 copies of it side by side along the columns, and shifts column `c` of every row by
  `min (2047 - (i₁ * 128 + (c >>ₛ 6)), 31)`, the column number coming from an `iota` along the columns. So entry `(r, c)`
  is the bit of `word x0[r, c % 64]` that embedding position `i₁ * 128 + c / 64` reads: a concatenation of equal pieces
  read at an index is the piece at the index modulo its extent, a row vector broadcast down the rows is read at row 0,
  and the column's word arithmetic is `shr6` and `tilePos`.
-/
import proofs.«426037_j7808250544915_2_alg».proof.Proof.Gen.KernelIdeal.Skeleton
import proofs.«426037_j7808250544915_2_alg».proof.Proof.BitSpec
import Idealize.ShloMosaic.Lib.Pipeline.Value

noncomputable section

namespace Cert.KernelIdeal.Payload

open Cert.KernelIdeal Cert.KernelIdeal.Gen Idealize.ShloMosaic Idealize.ShloMosaic.ValueIdx Cert.BitSpec

variable {F : FTy → Type} [FloatOps F]

/-- Column `c` modulo the piece's 64 columns. -/
abbrev lane (c : Fin 8192) : Fin 64 := ⟨c.val % 64, Nat.mod_lt _ (by decide)⟩

/-- 128 copies of one `[256, 64]` piece side by side, read at `(r, c)`: the piece at `(r, c % 64)`. -/
theorem tile_apply (v : IVec S256x64 32) (xs : List ((s : Shape) × (s.Idx → BitVec 32)))
    (hxs : xs = List.replicate 128 ⟨S256x64, v⟩) (h : Shape.Concatenates (xs.map (·.1)) S256x8192 1)
    (r : Fin 256) (c : Fin 8192) :
    concatenate S256x8192 1 xs h (ix2 r c) = v (ix2 r (lane c)) := by
  subst hxs
  refine concatenate_replicate_apply (t := S256x8192) (s₁ := S256x64) 1 128 v h rfl (ix2 r c) (ix2 r (lane c)) rfl ?_
  intro b hb
  match b with
  | ⟨0, _⟩ => rfl
  | ⟨1, _⟩ => exact absurd rfl hb

/-- The column `iota` of the one-row vector at column `c` is the word of `c`. -/
theorem iota_apply (h : S1x8192.Iotas .tc 32 [1]) (c : Fin 8192) :
    iota .tc S1x8192 32 [1] h (ix2 (0 : Fin 1) c) = BitVec.ofNat 32 c.val := by
  show BitVec.ofNat 32 (0 * 8192 + c.val) = _
  rw [Nat.zero_mul, Nat.zero_add]

/-- A one-row vector broadcast down 256 rows, read at `(r, c)`: its entry at column `c`. -/
theorem rows_apply (v : IVec S1x8192 32) (h : S1x8192.Broadcasts S256x8192) (r : Fin 256) (c : Fin 8192) :
    broadcastTo S256x8192 v h (ix2 r c) = v (ix2 (0 : Fin 1) c) :=
  broadcastTo_apply v h (ix2 r c) (ix2 (0 : Fin 1) c) (fun a => match a with
    | ⟨0, _⟩ => by show (0 : Nat) = if (1 : Nat) = 1 then 0 else _; rw [if_pos rfl]
    | ⟨1, _⟩ => by show c.val = if (8192 : Nat) = 1 then 0 else c.val; rw [if_neg (by decide)])

/-- The last three operations at an entry, over ANY shifted vector and any vector of amounts that hold there the word
    and the amount of the claim: the shift, the mask with 1 and the conversion act entry by entry. -/
theorem bit_of_entries (x : BitVec 32) (e : Nat) (cat amt : IVec S256x8192 32) (y : S256x8192.Idx)
    (hcat : cat y = word x) (hamt : amt y = amount e) :
    (sitofp .f32 (andi (shrsi cat amt) (broadcast S256x8192 1#32)) : FVec F S256x8192 .f32) y
      = FloatOps.sitofp .f32 (bit .vector x e) := by
  show FloatOps.sitofp .f32 (IntOp.andi (IntOp.shrsi .vector (cat y) (amt y)) 1#32) = _
  rw [hcat, hamt]
  rfl

/-- THE PAYLOAD AT AN ENTRY: at grid point `i`, entry `(r, c)` of the stored tile is the float of the bit of
    `word x0[r, c % 64]` that position `i₁ * 128 + c / 64` reads. -/
theorem pay_apply (i : grid0.Coords) (x0 : Vec F S256x64 .i32) (r : Fin 256) (c : Fin 8192) :
    k0_pay1 (F := F) i x0 (ix2 r c)
      = FloatOps.sitofp .f32 (bit .vector (x0 (ix2 r (lane c))) ((i 1).val * 128 + c.val / 64)) := by
  unfold k0_pay1
  dsimp only
  refine bit_of_entries (x0 (ix2 r (lane c))) ((i 1).val * 128 + c.val / 64) _ _ (ix2 r c) ?_ ?_
  · -- the 128 copies of `2 x0 + 1`, read at column `c`
    refine (tile_apply _ _ rfl _ r c).trans ?_
    show IntOp.addi (IntOp.muli 2#32 (shapeCast S256x64 x0 shapeCasts_S256x64_S256x64 (ix2 r (lane c)))) 1#32 = _
    rw [shapeCast_self]
    rfl
  · -- the row of amounts, read at column `c`
    refine (rows_apply _ _ r c).trans ?_
    show IntOp.minsi (IntOp.subi 2047#32 (IntOp.addi (Scalar.muli (BitVec.ofNat 32 (i 1).val) 128#32)
        (IntOp.shrsi .vector (iota .tc S1x8192 32 [1] iota_S1x8192_d1_w32 (ix2 (0 : Fin 1) c)) 6#32))) 31#32 = _
    rw [iota_apply, shr6 .vector c.val c.isLt, tilePos]
    rfl

end Cert.KernelIdeal.Payload

end
-- ==== Proof.KernelValue.lean ====
/-
  What the idealized kernel's program leaves in its result, as one function of the token array.

  The program transposes the tokens to `[2048, 64]`, runs the region on an 8 × 16 grid, and reshapes the region's flat
  `[2048, 131072]` output to `[2048, 2048, 64]`. Point `t = (t₀, t₁)` loads rows `256 t₀ …` of the transposed tokens and
  writes back the `[256, 8192]` tile at block `(t₀, t₁)` of the flat array. By the payload lemma the tile's entry `(r, c)`
  is the bit of `word xᵀ[256 t₀ + r, c % 64]` at position `128 t₁ + c / 64`; the flat index of that entry is
  `(256 t₀ + r, 8192 t₁ + c)`, whose column has remainder `c % 64` and quotient `128 t₁ + c / 64` by 64: every point
  writes ITS BLOCK OF ONE array, `flat` of the tokens. The 128 blocks tile the flat array, so it ends at `flat`, and its
  reshape is `G`.
-/
import proofs.«426037_j7808250544915_2_alg».proof.Proof.FrameKernelIdeal
import proofs.«426037_j7808250544915_2_alg».proof.Proof.KernelPayload
import Idealize.ShloMosaic.Lib.Pipeline.Value
import Idealize.ShloMosaic.Lib.StableHlo.Run

noncomputable section

namespace Cert.KernelIdeal.KernelValue

open Cert.KernelIdeal Cert.KernelIdeal.Gen Cert.KernelIdeal.GenP Idealize.ShloMosaic Idealize.ShloMosaic.TcCoe Idealize.SL.Sem
open Idealize.ShloMosaic.Pipeline (Dat)
open Idealize.ShloMosaic.ValueIdx Cert.BitSpec Cert.KernelIdeal.Payload

variable {F : FTy → Type} [FloatOps F]
variable (m : (ℓ : Loc nD τ sig) → Buf (Elt F) ℓ) (ρ : Dev nD → PrngReg)

/-! ## The transposed tokens the region finds -/

/-- The region's input array is the transpose of the argument. -/
theorem V_tokens (c : Dev nD) :
    (V m c main_v0 : S2048x64.Idx → BitVec 32)
      = transpose S2048x64 [1, 0] (m ((c : Thread nD τ).loc main_arg0)) transposes_S64x2048_S2048x64_1_0 := by
  show StableHlo.after hostOps0 (fun b => m (c, b)) (Proc.devRef .tc main_v0) = _
  after_results

/-- The transpose at `(J, q)` reads the argument at `(q, J)`. -/
theorem tokens_apply (x : S64x2048.Idx → BitVec 32) (J : Fin 2048) (q : Fin 64) :
    transpose S2048x64 [1, 0] x transposes_S64x2048_S2048x64_1_0 (ix2 J q) = x (ix2 q J) :=
  transpose_apply [1, 0] x _ (ix2 J q) (ix2 q J) (fun b => match b with
    | ⟨0, _⟩ => rfl
    | ⟨1, _⟩ => rfl)

/-! ## The index maps over the grid -/

/-- The input's block row is the output's, its block column 0; the output's block column is the point's second grid
    coordinate; both block indices stay in their ranges. Decided over the 128 points. -/
theorem idx_facts : ∀ t : Fin cfg0.N, win0_0.index t (0 : Fin 2) = win0_1.index t (0 : Fin 2)
    ∧ win0_0.index t (1 : Fin 2) = 0
    ∧ win0_1.index t (1 : Fin 2) = (grid0.coords t (1 : Fin 2)).val
    ∧ win0_1.index t (0 : Fin 2) < 8 ∧ win0_1.index t (1 : Fin 2) < 16 :=
  (by decide +kernel : ∀ t : Fin grid0.N, _)

/-- Every block of the flat array is some point's. -/
theorem idx_onto : ∀ (q0 : Fin 8) (q1 : Fin 16), ∃ t : Fin cfg0.N, win0_1.index t = ![q0.val, q1.val] :=
  (by decide +kernel : ∀ (q0 : Fin 8) (q1 : Fin 16), ∃ t : Fin grid0.N, win0_1.index t = ![q0.val, q1.val])

theorem zero_offsets : (![0, 0] : Fin 2 → Nat) = fun _ => 0 := funext fun a => by fin_cases a <;> rfl

/-! ## What a point writes back -/

/-- Entry `(r, q)` of the input block at point `t` is the token at `(q, 256 t₀ + r)`. -/
theorem block_token (c : Dev nD) (t : Fin cfg0.N) (r : Fin 256) (q : Fin 64) (J : Fin 2048)
    (hJ : J.val = win0_1.index t (0 : Fin 2) * 256 + r.val) :
    iblk m c 0 t (ix2 r q) = m ((c : Thread nD τ).loc main_arg0) (ix2 q J) := by
  obtain ⟨e0, e1, e2, e3, e4⟩ := idx_facts t
  show V m c main_v0 (((cfg0.win 0).blk t).view.emb (ix2 r q)) = _
  rw [V_tokens]
  refine (congrArg _ ?_).trans (tokens_apply _ J q)
  funext a; apply Fin.ext
  match a with
  | ⟨0, _⟩ => show win0_0.index t (0 : Fin 2) * 256 + 1 * r.val = J.val; omega
  | ⟨1, _⟩ => show win0_0.index t (1 : Fin 2) * 64 + 1 * q.val = q.val; omega

/-- WHAT POINT `t` WRITES BACK is block `t` of `flat` of the tokens. -/
theorem flushed_eq (c : Dev nD) (t : Fin cfg0.N) :
    (dats m 0 c).flushed 1 t
      = ((cfg0.win 1).blk t).view.read (Elt F) (flat (F := F) (m ((c : Thread nD τ).loc main_arg0))) := by
  show (cfg0.win 1).cut (grid0.coords t) ((dats m 0 c).after 1 t) = _
  rw [after0_1]
  unfold out0_1
  rw [View.canon_unit_zero zero_offsets]
  simp only [View.ld_unit_zero (S := S256x64) zero_offsets]
  obtain ⟨e0, e1, e2, e3, e4⟩ := idx_facts t
  funext j
  obtain ⟨r, cc, rfl⟩ : ∃ (r : Fin 256) (cc : Fin 8192), j = ix2 r cc := ⟨j 0, j 1, eq_ix2 j⟩
  show k0_pay1 (grid0.coords t) (iblk m c 0 t) (ix2 r cc)
    = flat (F := F) (m ((c : Thread nD τ).loc main_arg0)) (((cfg0.win 1).blk t).view.emb (ix2 r cc))
  have hr : r.val < 256 := r.isLt
  have hc : cc.val < 8192 := cc.isLt
  refine (pay_apply (grid0.coords t) (iblk m c 0 t) r cc).trans ?_
  rw [block_token m c t r (lane cc) ⟨win0_1.index t (0 : Fin 2) * 256 + r.val, by omega⟩ rfl]
  symm
  refine flat_apply _ _ ⟨win0_1.index t (0 : Fin 2) * 256 + r.val, by omega⟩ (lane cc) _ ?_ ?_ ?_
  · show win0_1.index t (0 : Fin 2) * 256 + 1 * r.val = win0_1.index t (0 : Fin 2) * 256 + r.val
    omega
  · show (win0_1.index t (1 : Fin 2) * 8192 + 1 * cc.val) % 64 = cc.val % 64
    omega
  · show (win0_1.index t (1 : Fin 2) * 8192 + 1 * cc.val) / 64 = (grid0.coords t (1 : Fin 2)).val * 128 + cc.val / 64
    omega

/-! ## The blocks tile the flat array -/

/-- An index of the flat array is in point `t`'s block iff each coordinate is in the block's range on its axis. -/
theorem mem_blk (t : Fin cfg0.N) (i : S2048x131072.Idx) :
    i ∈ ((cfg0.win 1).blk t).view.set ↔ ∀ a : Fin 2, win0_1.index t a * S256x8192.size a ≤ (i a).val
      ∧ (i a).val < win0_1.index t a * S256x8192.size a + S256x8192.size a := by
  show i ∈ ((View.whole main_v1).slice (win0_1.rect t)).set ↔ _
  rw [View.set_slice_whole, Rect.mem_set_unit]
  exact Iff.rfl

/-- Every index is in the block of the point whose block indices are its coordinates' quotients by 256 and 8192. -/
theorem cover (i : S2048x131072.Idx) :
    ∃ t : Fin cfg0.N, (cfg0.win 1).flush t = true ∧ i ∈ ((cfg0.win 1).blk t).view.set := by
  have hi0 : (i 0).val < 2048 := (i 0).isLt
  have hi1 : (i 1).val < 131072 := (i 1).isLt
  obtain ⟨t, ht⟩ := idx_onto ⟨(i 0).val / 256, by omega⟩ ⟨(i 1).val / 8192, by omega⟩
  have q0 : win0_1.index t (0 : Fin 2) = (i 0).val / 256 := congrFun ht 0
  have q1 : win0_1.index t (1 : Fin 2) = (i 1).val / 8192 := congrFun ht 1
  refine ⟨t, flush0_1 t, ?_⟩
  rw [mem_blk]
  intro a
  match a with
  | ⟨0, _⟩ =>
    show win0_1.index t (0 : Fin 2) * 256 ≤ (i 0).val ∧ (i 0).val < win0_1.index t (0 : Fin 2) * 256 + 256
    omega
  | ⟨1, _⟩ =>
    show win0_1.index t (1 : Fin 2) * 8192 ≤ (i 1).val ∧ (i 1).val < win0_1.index t (1 : Fin 2) * 8192 + 8192
    omega

/-- THE FLAT ARRAY after the region is `flat` of the tokens. -/
theorem final (c : Dev nD) :
    (dats m 0 c).arrAt 1 cfg0.N = flat (F := F) (m ((c : Thread nD τ).loc main_arg0)) :=
  (dats m 0 c).arrAt_eq_of_cover 1 (flat (F := F) (m ((c : Thread nD τ).loc main_arg0)))
    (fun t _ => flushed_eq m c t) cover

/-! ## The reshape after the region, and the run -/

/-- THE RESULT: the reshape of the flat array, which is `G` of the tokens. -/
theorem result (c : Dev nD) :
    Pipeline.afterTail₀ cfgs (dats m) 0 (V0 m) [hostOps1] c main_v2
      = G (F := F) (m ((c : Thread nD τ).loc main_arg0)) := by
  unfold Pipeline.afterTail₀
  show StableHlo.after hostOps1 _ (Proc.devRef .tc main_v2) = _
  after_results
  have harr := Pipeline.withArrays_arr spec0 launch0.win.arr_inj c (V0 m c) (fun w => (dats m 0 c).arrAt w cfg0.N) 1
  show shapeCast S2048x2048x64 (Pipeline.withArrays spec0 c (V0 m c) (fun w => (dats m 0 c).arrAt w cfg0.N)
    (Proc.devRef .tc (Pipeline.arrRef spec0 1))) shapeCasts_S2048x131072_S2048x2048x64 = _
  rw [harr, final]
  exact reshape_flat _ _

/-- The program's run, read: the result at `G` of the tokens, the tokens unchanged. -/
theorem run : θ_run defs (onTc (τ := τ) (main (F := F))) ⟨m, fun _ => 0, ρ⟩ fun r => ∀ c : Dev nD,
      r.2.mem ((c : Thread nD τ).loc main_v2) = G (F := F) (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans (result m c),
       ((h c).2 main_arg0 (Pipeline.mem_restRefs_of main_arg0 (by decide) (by decide))).trans (W_main_arg0 m (dats m) c)⟩)
    (run_main m ρ)

end Cert.KernelIdeal.KernelValue

end
-- ==== Proof.ReferenceValue.lean ====
/-
  The reference's result is the specification `G` of the token array.

  The reference forms `word x = 2 x + 1` on the `[64, 2048]` array, the amounts `min (2047 - e, 31)` on an `iota` over the
  2048 positions, broadcasts both to `[64, 2048, 2048]` (tokens along the first two axes, amounts along the third), shifts,
  masks with 1, transposes to `[2048, 2048, 64]` and converts. Read at `(j, e, b)` through the stage lemmas, the transpose
  sends the index to `(b, j, e)`, the two broadcasts keep `(b, j)` for the token and `e` for the amount, and what is left
  is `G`'s own expression.
-/
import proofs.«426037_j7808250544915_2_alg».proof.Proof.Gen.ReferenceIdeal.Read
import proofs.«426037_j7808250544915_2_alg».proof.Proof.BitSpec

noncomputable section

namespace Cert.ReferenceIdeal.RefValue

open Cert.ReferenceIdeal Cert.ReferenceIdeal.Read Idealize.ShloMosaic Idealize.ShloMosaic.ValueIdx Cert.BitSpec

variable {F : FTy → Type} [FloatOps F]

/-- The token a result index `(j, e, b)` reads sits at `(b, j)`: the transpose's source index pushed through the two
    broadcasts of the token array. -/
theorem token_idx (i : S2048x2048x64.Idx) : idx_main_v9 (idx_main_v11 (idx_main_v16 i)) = ix2 (i 2) (i 0) :=
  funext fun a => Fin.ext (by match a with | ⟨0, _⟩ => rfl | ⟨1, _⟩ => rfl)

/-- The reference's last stage is `G` of the argument. -/
theorem result_eq (x0 : (⟨S64x2048, .i32⟩ : BufTy).Contents (Elt F)) : val_main_v17 (F := F) x0 = G (F := F) x0 := by
  funext i
  rw [val_main_v17_apply, val_main_v16_apply, val_main_v15_apply, val_main_v13_apply, val_main_v14_apply,
    val_main_c_3_apply, val_main_v11_apply, val_main_v9_apply, val_main_v3_apply, val_main_v1_apply, val_main_v0_apply,
    val_main_c_apply, val_main_v2_apply, val_main_c_0_apply, val_main_v12_apply, val_main_v10_apply, val_main_v8_apply,
    val_main_v6_apply, val_main_v5_apply, val_main_c_1_apply, val_main_v4_apply, val_main_v7_apply, val_main_c_2_apply,
    token_idx]
  rfl

end Cert.ReferenceIdeal.RefValue

end
-- ==== Proof.lean ====
/-
  The certificate of the bit-embedding kernel against its jnp reference.

  Both programs send a token array `x : i32[64, 2048]` to `Y : f32[2048, 2048, 64]`,
      Y[j, e, b] = float ((word x[b, j] >>ₛ min (2047 - e, 31)) &&& 1),   word x = 2 x + 1 on 32-bit words
  (`BitSpec.G`). All the arithmetic is on integers; the one float operation, the conversion of the bit, is applied to
  equal words on both sides, so no law of the extended reals is needed and the (always true) precondition is not opened.

  * The kernel side (`KernelValue`): the tokens transposed, a pipelined region over an 8 × 16 grid whose point
    `(t₀, t₁)` writes the `[256, 8192]` tile at block `(t₀, t₁)` of a flat `[2048, 131072]` array, a final reshape. The
    tile's entry `(r, c)` is 128 copies of the block's words read at `c % 64`, shifted by the amount of position
    `128 t₁ + c / 64` (`KernelPayload`); the tiles are blocks of one array, they cover it, and its reshape is `G`.
  * The reference side (`ReferenceValue`): broadcasts, the shift, the mask, a transpose and the conversion, read at an
    index, are `G`.
  * The frames of the two kernel programs are the launch certificates (the region's body run once at a symbolic grid
    point); the reference's frame is its run with the result dropped. The idealization rewrote nothing, so `preserves`
    is trivial.
-/
import proofs.«426037_j7808250544915_2_alg».proof.Defs
import proofs.«426037_j7808250544915_2_alg».proof.Proof.Gen.Kernel
import proofs.«426037_j7808250544915_2_alg».proof.Proof.Gen.Kernel.Skeleton
import proofs.«426037_j7808250544915_2_alg».proof.Proof.Gen.Kernel.Launch
import proofs.«426037_j7808250544915_2_alg».proof.Proof.Gen.Kernel.Points
import proofs.«426037_j7808250544915_2_alg».proof.Proof.FrameKernel
import proofs.«426037_j7808250544915_2_alg».proof.Proof.Gen.KernelIdeal
import proofs.«426037_j7808250544915_2_alg».proof.Proof.Gen.KernelIdeal.Skeleton
import proofs.«426037_j7808250544915_2_alg».proof.Proof.Gen.KernelIdeal.Launch
import proofs.«426037_j7808250544915_2_alg».proof.Proof.Gen.KernelIdeal.Points
import proofs.«426037_j7808250544915_2_alg».proof.Proof.FrameKernelIdeal
import proofs.«426037_j7808250544915_2_alg».proof.Proof.Gen.ReferenceIdeal
import proofs.«426037_j7808250544915_2_alg».proof.Proof.Gen.ReferenceIdeal.Run
import proofs.«426037_j7808250544915_2_alg».proof.Proof.Gen.ReferenceIdeal.Read
import proofs.«426037_j7808250544915_2_alg».proof.Proof.Gen.Pre_any_inputs
import proofs.«426037_j7808250544915_2_alg».proof.Proof.KernelValue
import proofs.«426037_j7808250544915_2_alg».proof.Proof.ReferenceValue
import Idealize.ShloMosaic.Adequacy
import Idealize.ShloMosaic.Init

noncomputable section

namespace Cert.Proof

open Idealize.ShloMosaic Idealize.ShloMosaic.TcCoe Idealize.SL.Sem

/-- The word-level kernel program runs and leaves the tokens as launched. -/
theorem frame_kernel : Cert.frame_Kernel := fun m ρ _ => Cert.Kernel.GenP.frame m ρ

/-- So does its idealization. -/
theorem frame_kernelIdeal : Cert.frame_KernelIdeal := fun m ρ _ => Cert.KernelIdeal.GenP.frame m ρ

/-- The reference runs and leaves the tokens as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the tokens both programs end with `G` of the tokens in their result. -/
theorem algebraic : Cert.algebraic_KernelIdeal_ReferenceIdeal := by
  intro m ρ m' ρ' _ hagree
  refine ⟨fun c => Cert.BitSpec.G (F := Ideal)
      (m ((c.tc : Thread Cert.KernelIdeal.nD Cert.KernelIdeal.τ).loc Cert.KernelIdeal.main_arg0)),
    Cert.KernelIdeal.KernelValue.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.result_eq, hagree c]

theorem claim : Cert.Claim :=
  ⟨Cert.Kernel.Gen.facts, Cert.KernelIdeal.Gen.facts, Cert.ReferenceIdeal.Gen.facts, Cert.Pre_any_inputs.Gen.facts,
    frame_kernel, frame_kernelIdeal, frame_referenceIdeal, preserves, algebraic⟩

end Cert.Proof

end
